-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x16x8192 : Shape := ⟨3, ![1, 16, 8192]⟩
abbrev S8192x8192 : Shape := ⟨2, ![8192, 8192]⟩
abbrev S8192 : Shape := ⟨1, ![8192]⟩
abbrev S_ : Shape := ⟨0, ![]⟩

class Facts : Prop where
  bcast_S_S1x16x8192 : S_.BroadcastsInDim S1x16x8192 (![] : Fin 0 → Fin S1x16x8192.rank)
  reducesTo_S1x16x8192_S_d0_1_2 : S1x16x8192.ReducesTo [0, 1, 2] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S1x16x8192 .f32) (main_arg1 : IVec S8192x8192 32) (main_arg2 : FVec F S8192 .f32) (main_arg3 : FVec F S8192 .f32) : IVec S_ 1 :=
  let main_v0 : FVec F S1x16x8192 .f32 := Host.absf main_arg0
  let main_cst : FVec F S_ .f32 := constant S_ .f32 0x7F800000#32
  let main_v1 : FVec F S1x16x8192 .f32 := broadcastInDim S1x16x8192 ![] bcast_S_S1x16x8192 main_cst
  let main_v2 : IVec S1x16x8192 1 := cmpf .olt main_v0 main_v1
  let main_c : IVec S_ 1 := constantI S_ 1 1#1
  let main_v3 : IVec S_ 1 := (fun x v => Host.reduce IntOp.andi x v reducesTo_S1x16x8192_S_d0_1_2 h_S_) main_v2 main_c
  let main_v4 : FVec F S8192 .f32 := Host.absf main_arg2
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S8192 .f32 := Host.absf main_arg3
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S1x16x8192 : Shape := ⟨3, ![1, 16, 8192]⟩
abbrev S8192x8192 : Shape := ⟨2, ![8192, 8192]⟩
abbrev S8192 : Shape := ⟨1, ![8192]⟩
abbrev S16x8192 : Shape := ⟨2, ![16, 8192]⟩
abbrev S16x1024 : Shape := ⟨2, ![16, 1024]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 7
  | .vmem => 11
  | .smem => 0
  | _ => 0

abbrev bufTy : (tb : Table) → Fin (tcTables nBuf tb) → BufTy
  | .hbm, ⟨0, _⟩ => ⟨S1x16x8192, .f32⟩
  | .hbm, ⟨1, _⟩ => ⟨S8192x8192, .i32⟩
  | .hbm, ⟨2, _⟩ => ⟨S8192, .f32⟩
  | .hbm, ⟨3, _⟩ => ⟨S8192, .f32⟩
  | .hbm, ⟨4, _⟩ => ⟨S16x8192, .f32⟩
  | .hbm, ⟨5, _⟩ => ⟨S16x8192, .f32⟩
  | .hbm, ⟨6, _⟩ => ⟨S1x16x8192, .f32⟩
  | .local _ .vmem, ⟨0, _⟩ => ⟨S16x1024, .f32⟩
  | .local _ .vmem, ⟨1, _⟩ => ⟨S16x1024, .f32⟩
  | .local _ .vmem, ⟨2, _⟩ => ⟨S1024x1024, .i32⟩
  | .local _ .vmem, ⟨3, _⟩ => ⟨S1024x1024, .i32⟩
  | .local _ .vmem, ⟨4, _⟩ => ⟨S1024, .f32⟩
  | .local _ .vmem, ⟨5, _⟩ => ⟨S1024, .f32⟩
  | .local _ .vmem, ⟨6, _⟩ => ⟨S1024, .f32⟩
  | .local _ .vmem, ⟨7, _⟩ => ⟨S1024, .f32⟩
  | .local _ .vmem, ⟨8, _⟩ => ⟨S16x1024, .f32⟩
  | .local _ .vmem, ⟨9, _⟩ => ⟨S16x1024, .f32⟩
  | .local _ .vmem, ⟨10, _⟩ => ⟨S16x1024, .f32⟩
  | _, _ => ⟨S1x16x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_10 : BitVec 32 := 0#32
  let v23 : BitVec 1 := Scalar.cmpi .ne v22 c0_i32_10
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S1x16x8192_S16x8192 : S1x16x8192.ShapeCasts S16x8192
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S1024x1024_S1024x1024_0_0 : ∀ a, (![0, 0] : Fin 2 → Nat) a + S1024x1024.size a ≤ S1024x1024.size a
  h_S1024x1024 : 0 < S1024x1024.numel
  inb_S1024_S1024_0 : ∀ a, (![0] : Fin 1 → Nat) a + S1024.size a ≤ S1024.size a
  h_S1024 : 0 < S1024.numel
  shapeCasts_S1024_S1024x1 : S1024.ShapeCasts S1024x1
  broadcasts_S1024x1_S1024x1024 : S1024x1.Broadcasts S1024x1024
  bitsLt_bf16_f32 : FTy.bits .bf16 < FTy.bits .f32
  shapeCasts_S1024_S1x1024 : S1024.ShapeCasts S1x1024
  broadcasts_S1x1024_S16x1024 : S1x1024.Broadcasts S16x1024
  shapeCasts_S16x8192_S1x16x8192 : S16x8192.ShapeCasts S1x16x8192
  dot_S16x1024_S1024x1024_S16x1024_1_1_0_0_n_n_wf : DotDims.WF S16x1024 S1024x1024 S16x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x1024.size a ≤ S16x8192.size a
  hwx0_0 : ∀ i : grid0.Coords, EltTy.bits .f32 = 32 ∨ (Rect.block (s := S16x8192) S16x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x8192.size a
  hwx0_1 : ∀ i : grid0.Coords, EltTy.bits .i32 = 32 ∨ (Rect.block (s := S8192x8192) S1024x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S8192.size a
  hwx0_2 : ∀ i : grid0.Coords, EltTy.bits .f32 = 32 ∨ (Rect.block (s := S8192) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S8192.size a
  hwx0_3 : ∀ i : grid0.Coords, EltTy.bits .f32 = 32 ∨ (Rect.block (s := S8192) S1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x1024.size a ≤ S16x8192.size a
  hwx0_4 : ∀ i : grid0.Coords, EltTy.bits .f32 = 32 ∨ (Rect.block (s := S16x8192) S16x1024.size (cc0_transform_4 i) (hinb0_4 i)).WholeWords (EltTy.packing .f32)

variable [Facts₀]

def dot_S16x1024_S1024x1024_S16x1024_1_1_0_0_n_n : DotDims S16x1024 S1024x1024 S16x1024 where
  lhsContracting := [1]
  rhsContracting := [1]
  lhsNonContracting := [0]
  rhsNonContracting := [0]
  lhsBatch := []
  rhsBatch := []
  wf := dot_S16x1024_S1024x1024_S16x1024_1_1_0_0_n_n_wf

abbrev win0_0 : Pipeline.Window sig grid0 :=
  Pipeline.Window.ofSpec (Memref.whole main_v0) S16x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S16x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S1x16x8192 : Shape := ⟨3, ![1, 16, 8192]⟩
abbrev S8192x8192 : Shape := ⟨2, ![8192, 8192]⟩
abbrev S8192 : Shape := ⟨1, ![8192]⟩
abbrev S_ : Shape := ⟨0, ![]⟩
abbrev S8192x1 : Shape := ⟨2, ![8192, 1]⟩
abbrev S1x1x8192 : Shape := ⟨3, ![1, 1, 8192]⟩

abbrev nBuf : Space → Nat
  | .hbm => 15
  | .vmem => 0
  | .smem => 0
  | _ => 0

abbrev bufTy : (tb : Table) → Fin (tcTables nBuf tb) → BufTy
  | .hbm, ⟨0, _⟩ => ⟨S1x16x8192, .f32⟩
  | .hbm, ⟨1, _⟩ => ⟨S8192x8192, .i32⟩
  | .hbm, ⟨2, _⟩ => ⟨S8192, .f32⟩
  | .hbm, ⟨3, _⟩ => ⟨S8192, .f32⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S8192x1, .f32⟩
  | .hbm, ⟨9, _⟩ => ⟨S8192x8192, .f32⟩
  | .hbm, ⟨10, _⟩ => ⟨S8192x8192, .f32⟩
  | .hbm, ⟨11, _⟩ => ⟨S1x16x8192, .f32⟩
  | .hbm, ⟨12, _⟩ => ⟨S1x1x8192, .f32⟩
  | .hbm, ⟨13, _⟩ => ⟨S1x16x8192, .f32⟩
  | .hbm, ⟨14, _⟩ => ⟨S1x16x8192, .f32⟩
  | _, _ => ⟨S1x16x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x1x8192_2 : S8192.BroadcastsInDim S1x1x8192 (![2] : Fin 1 → Fin S1x1x8192.rank)
  bcast_S1x1x8192_S1x16x8192_0_1_2 : S1x1x8192.BroadcastsInDim S1x16x8192 (![0, 1, 2] : Fin 3 → Fin S1x16x8192.rank)
  dot_S1x16x8192_S8192x8192_S1x16x8192_2_1_01_0_n_n_wf : DotDims.WF S1x16x8192 S8192x8192 S1x16x8192 [2] [1] [0, 1] [0] [] []

variable [Facts₀]

def dot_S1x16x8192_S8192x8192_S1x16x8192_2_1_01_0_n_n : DotDims S1x16x8192 S8192x8192 S1x16x8192 where
  lhsContracting := [2]
  rhsContracting := [1]
  lhsNonContracting := [0, 1]
  rhsNonContracting := [0]
  lhsBatch := []
  rhsBatch := []
  wf := dot_S1x16x8192_S8192x8192_S1x16x8192_2_1_01_0_n_n_wf

class Facts : Prop extends Facts₀ where

variable [Facts]
-- ==== Proof.LibBlockSum.lean ====
/-
  Two facts about finite sums in a commutative monoid, used to compare an inner product accumulated block by
  block with the same inner product taken in one pass.  Neither needs the summands to be finite numbers:
  only that addition is associative and commutative (as it is on the extended reals).
-/
import Mathlib.Algebra.BigOperators.Fin
import Mathlib.Algebra.BigOperators.Intervals
import Mathlib.Logic.Equiv.Fin.Basic

namespace Cert.BlockSum

open Finset

/-- A sum over `n = nb * b` indices is the sum over the `nb` blocks of the sums over each block's `b` indices;
    index `kk` of block `kb` is `kb * b + kk`. -/
theorem sum_blocks {M : Type*} [AddCommMonoid M] {n : ℕ} (nb b : ℕ) (h : n = nb * b) (f : Fin n → M) :
    ∑ k : Fin n, f k
      = ∑ kb : Fin nb, ∑ kk : Fin b, f ⟨kb.val * b + kk.val, by
          subst h
          calc kb.val * b + kk.val < kb.val * b + b := Nat.add_lt_add_left kk.isLt _
            _ = (kb.val + 1) * b := (Nat.succ_mul _ _).symm
            _ ≤ nb * b := Nat.mul_le_mul_right _ kb.isLt⟩ := by
  subst h
  rw [← Fintype.sum_prod_type', ← (finProdFinEquiv (m := nb) (n := b)).sum_comp]
  refine Fintype.sum_congr _ _ fun p => ?_
  congr 1
  apply Fin.ext
  show p.2.val + b * p.1.val = p.1.val * b + p.2.val
  rw [Nat.mul_comm, Nat.add_comm]

/-- A running total that starts at the first term added to zero and then adds one term per step is, after step
    `k`, the sum of the terms `0 … k`. -/
theorem running_total {M : Type*} [AddCommMonoid M] (P a : ℕ → M) (h0 : a 0 = 0 + P 0)
    (hs : ∀ k, a (k + 1) = a k + P (k + 1)) (k : ℕ) : a k = ∑ i ∈ range (k + 1), P i := by
  induction k with
  | zero => rw [h0, zero_add, sum_range_one]
  | succ k ih => rw [hs, ih, sum_range_succ (fun i => P i) (k + 1)]

/-- The same total over all `nb` blocks, as a sum over `Fin nb`. -/
theorem running_total_last {M : Type*} [AddCommMonoid M] (nb : ℕ) (P a : ℕ → M) (h0 : a 0 = 0 + P 0)
    (hs : ∀ k, a (k + 1) = a k + P (k + 1)) : a nb = ∑ i : Fin (nb + 1), P i.val := by
  rw [running_total P a h0 hs nb, Fin.sum_univ_eq_sum_range (fun i => P i) (nb + 1)]

end Cert.BlockSum
-- ==== Proof.DequantLinear.lean ====
/-
  A linear layer whose weight matrix is stored as integer codes.  Row `o` of the weights is
  `w[o, i] = (code[o, i] - 128) * scale[o]` and the layer computes
  `out[t, o] = Σ_i x[t, i] * w[o, i] + bias[o]` over the 8192 input features `i`.

  The contraction may be taken in one pass, or tile by tile: the features cut into eight tiles of 1024,
  feature `j` of tile `k` being `1024 k + j`, and a running total that starts from `0` plus the first
  tile's partial product and then adds one tile's partial product per step.  Over the extended reals the
  two agree, because addition there is associative and commutative; no summand has to be finite.
-/
import Idealize.ShloMosaic.PureOps.Ideal
import Idealize.ShloMosaic.Lib.ValueIdx
import proofs.«101341_j53755810676756_1_alg».proof.Proof.LibBlockSum

noncomputable section

namespace Cert.DequantLinear

open Idealize.ShloMosaic Idealize.ShloMosaic.ValueIdx

/-- The activations `x`, one batch of 16 rows of 8192 features; also the layer's result. -/
abbrev SAct : Shape := ⟨3, ![1, 16, 8192]⟩
/-- The weight codes, one row per output channel. -/
abbrev SCode : Shape := ⟨2, ![8192, 8192]⟩
/-- One number per output channel: the scales and the biases. -/
abbrev SChan : Shape := ⟨1, ![8192]⟩
/-- The result without its batch axis. -/
abbrev SRows : Shape := ⟨2, ![16, 8192]⟩

variable (x : SAct.Idx → EReal) (code : SCode.Idx → BitVec 32) (scale bias : SChan.Idx → EReal)

/-- The dequantized weight `w[o, i]`: the code read as a signed integer, centred at 128, times the row's scale. -/
def weight (o i : Fin 8192) : EReal :=
  (FloatOps.sitofp (F := Ideal) .f32 (code (ix2 o i)) - Ideal.ofBits .f32 0x43000000#32) * scale (ix1 o)

/-- One summand of the contraction: `x[t, i] * w[o, i]`. -/
def term (t : Fin 16) (o i : Fin 8192) : EReal := x (ix3 (0 : Fin 1) t i) * weight code scale o i

/-- The contraction in one pass: `Σ_i x[t, i] * w[o, i]`. -/
def dot (t : Fin 16) (o : Fin 8192) : EReal := ∑ i : Fin 8192, term x code scale t o i

/-- Feature `j` of tile `k`. -/
def feat (k : Fin 8) (j : Fin 1024) : Fin 8192 :=
  ⟨k.val * 1024 + j.val, by have := k.isLt; have := j.isLt; omega⟩

/-- Output channel `p` of column block `b`: the 8192 channels are likewise cut into eight blocks of 1024. -/
def chan (b : Fin 8) (p : Fin 1024) : Fin 8192 :=
  ⟨b.val * 1024 + p.val, by have := b.isLt; have := p.isLt; omega⟩

/-- Tile `k`'s partial product `Σ_j x[t, 1024 k + j] * w[o, 1024 k + j]` (zero past the last tile). -/
def tileDot (t : Fin 16) (o : Fin 8192) (k : ℕ) : EReal :=
  if h : k < 8 then ∑ j : Fin 1024, term x code scale t o (feat ⟨k, h⟩ j) else 0

/-- The running total after tile `k`: zero plus the first partial product, then one more per tile. -/
def running (t : Fin 16) (o : Fin 8192) : ℕ → EReal
  | 0 => 0 + tileDot x code scale t o 0
  | k + 1 => running t o k + tileDot x code scale t o (k + 1)

theorem running_zero (t : Fin 16) (o : Fin 8192) :
    running x code scale t o 0 = 0 + tileDot x code scale t o 0 := rfl

theorem running_succ (t : Fin 16) (o : Fin 8192) (k : ℕ) :
    running x code scale t o (k + 1) = running x code scale t o k + tileDot x code scale t o (k + 1) := rfl

/-- After the eighth tile the running total is the contraction taken in one pass. -/
theorem running_last (t : Fin 16) (o : Fin 8192) : running x code scale t o 7 = dot x code scale t o := by
  rw [Cert.BlockSum.running_total_last 7 (tileDot x code scale t o) (running x code scale t o)
    (running_zero x code scale t o) (running_succ x code scale t o)]
  unfold dot
  rw [Cert.BlockSum.sum_blocks 8 1024 (by norm_num) (term x code scale t o)]
  refine Finset.sum_congr rfl fun k _ => ?_
  unfold tileDot
  rw [dif_pos k.isLt]
  rfl

/-- The layer's result without the batch axis: `out[t, o] = Σ_i x[t, i] * w[o, i] + bias[o]`. -/
def rows : SRows.Idx → EReal := fun j => dot x code scale (j 0) (j 1) + bias (ix1 (j 1))

/-- The layer's result: the same numbers under a leading batch axis of extent one. -/
def result : SAct.Idx → EReal := fun j => dot x code scale (j 1) (j 2) + bias (ix1 (j 2))

end Cert.DequantLinear

end
-- ==== Proof.RefValue.lean ====
/-
  The reference computes the layer's result.  Read one operation at a time, its value at `(u, t, o)` is the
  host contraction `Σ_k x[u, t, k] * w[o, k]` of the activations with the dequantized weights — each weight the
  code converted to a float, minus 128, times the row's scale broadcast along the row — plus the bias
  broadcast over the batch and row axes.  The batch coordinate `u` can only be `0`.
-/
import proofs.«101341_j53755810676756_1_alg».proof.Proof.Gen.ReferenceIdeal.Read
import proofs.«101341_j53755810676756_1_alg».proof.Proof.DequantLinear

noncomputable section

namespace Cert.ReferenceIdeal.RefValue

open Cert.ReferenceIdeal Cert.ReferenceIdeal.Gen Cert.ReferenceIdeal.Read
open Idealize.ShloMosaic Idealize.ShloMosaic.ValueIdx
open Cert.DequantLinear

/-- The activation the contraction reads at `(u, t, o)`, summand `k`: entry `(0, t, k)`. -/
theorem lidx_eq (u : Fin 1) (t : Fin 16) (o k : Fin 8192) : lidx_main_v6 (ix3 u t o) k = ix3 (0 : Fin 1) t k :=
  funext fun a => Fin.ext (by
    match a with
    | ⟨0, _⟩ => show u.val = 0; omega
    | ⟨1, _⟩ => rfl
    | ⟨2, _⟩ => rfl)

/-- The weight it reads: entry `(o, k)`. -/
theorem ridx_eq (u : Fin 1) (t : Fin 16) (o k : Fin 8192) : ridx_main_v6 (ix3 u t o) k = ix2 o k :=
  funext fun a => Fin.ext (by
    match a with
    | ⟨0, _⟩ => rfl
    | ⟨1, _⟩ => rfl)

/-- The scale broadcast along row `o` is the scale of channel `o`. -/
theorem scale_idx_eq (o k : Fin 8192) : idx_main_v3 (idx_main_v4 (ix2 o k)) = ix1 o :=
  funext fun a => Fin.ext (by
    match a with
    | ⟨0, _⟩ => rfl)

/-- The bias broadcast to `(u, t, o)` is the bias of channel `o`. -/
theorem bias_idx_eq (u : Fin 1) (t : Fin 16) (o : Fin 8192) : idx_main_v7 (idx_main_v8 (ix3 u t o)) = ix1 o :=
  funext fun a => Fin.ext (by
    match a with
    | ⟨0, _⟩ => rfl)

/-- The reference's result, as a function of its four arguments, is the layer's result. -/
theorem reference_eq (x0 : (⟨S1x16x8192, .f32⟩ : BufTy).Contents (Elt Ideal))
    (x1 : (⟨S8192x8192, .i32⟩ : BufTy).Contents (Elt Ideal))
    (x2 x3 : (⟨S8192, .f32⟩ : BufTy).Contents (Elt Ideal)) :
    val_main_v9 (F := Ideal) x0 x1 x2 x3 = result x0 x1 x2 x3 := by
  funext i
  obtain ⟨u, t, o, rfl⟩ : ∃ (u : Fin 1) (t : Fin 16) (o : Fin 8192), i = ix3 u t o := ⟨i 0, i 1, i 2, eq_ix3 i⟩
  rw [val_main_v9_apply, val_main_v6_apply, val_main_v8_apply, val_main_v7_apply, bias_idx_eq]
  show (∑ k : Fin 8192, _) + _ = (∑ k : Fin 8192, term x0 x1 x2 t o k) + x3 (ix1 o)
  congr 1
  refine Finset.sum_congr rfl fun k _ => ?_
  rw [val_main_v5_apply, val_main_v2_apply, val_main_v0_apply, val_main_v1_apply, val_main_cst_apply,
    val_main_v4_apply, val_main_v3_apply, lidx_eq, ridx_eq, scale_idx_eq]
  rfl

end Cert.ReferenceIdeal.RefValue

end
-- ==== Proof.LibKeepdims.lean ====
/-
  Keepdims layouts read at an index, for values of any element type.

  A reduction written with `keepdims=True` leaves a unit axis behind and is then broadcast back over the
  reduced axis. Two of the layout steps this produces are read here at an index given by coordinates:

  * a vector `[a]` recast as a column `[a, 1]` holds, at `(i, u)`, the vector's entry `i` (the unit
    coordinate `u` can only be `0`, and the row-major positions `i` and `i * 1 + u` agree);
  * a column `[a, 1]` broadcast to `[a, b]` holds, at `(p, c)`, the column's entry `(p, 0)`: the unit axis
    is read at `0`, the other axis at the same coordinate (when `a = 1` that coordinate is `0` anyway).

  Together with the row forms (`[a] → [1, a]` and `[1, b] → [a, b]`) of the layout library these cover both
  operands of `rowsum[:, None] + colsum[None, :]`.
-/
import Idealize.ShloMosaic.Lib.ValueLayout

namespace KeepdimsLayout

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end KeepdimsLayout
-- ==== Proof.TilePayload.lean ====
/-
  What one grid point's arithmetic computes, entry by entry, at the ideal instance.

  The body multiplies the point's 16 x 1024 tile of activations with the point's 1024 x 1024 tile of
  dequantized weights, contracting the second axis of both: entry `(t, p)` of the product is
  `Σ_k x[t, k] * w[p, k]`, where `w[p, k] = (code[p, k] - 128) * scale[p]` (the scale vector recast as a column
  and broadcast along the row; the two changes of float format are the identity on extended reals).  The
  product is added to the accumulator; the accumulator's reset value is zero; and the last step adds the bias
  vector, recast as a row and broadcast over the 16 rows.
-/
import proofs.«101341_j53755810676756_1_alg».proof.Proof.Gen.KernelIdeal.Skeleton
import proofs.«101341_j53755810676756_1_alg».proof.Proof.LibKeepdims
import Idealize.ShloMosaic.Lib.ValueLayout
import Idealize.ShloMosaic.Lib.Pipeline.Value
import Idealize.ShloMosaic.PureOps.Ideal.Laws

noncomputable section

namespace Cert.KernelIdeal.TileValue

open Cert.KernelIdeal Cert.KernelIdeal.Gen
open Idealize.ShloMosaic Idealize.ShloMosaic.ValueIdx KeepdimsLayout

/-! ## The tile product's operand indices -/

/-- The activation read for output `(t, p)` lies in row `t`; -/
theorem lhs_row (j : S16x1024.Idx) (q : dot_S16x1024_S1024x1024_S16x1024_1_1_0_0_n_n.contr.Idx) :
    (dot_S16x1024_S1024x1024_S16x1024_1_1_0_0_n_n.lhsIdx j q 0).val = (j 0).val := by
  unfold DotDims.lhsIdx
  rw [dif_neg (show ¬(0 : Fin S16x1024.rank) ∈ dot_S16x1024_S1024x1024_S16x1024_1_1_0_0_n_n.lhsBatch by decide),
    dif_pos (show (0 : Fin S16x1024.rank) ∈ dot_S16x1024_S1024x1024_S16x1024_1_1_0_0_n_n.lhsNonContracting by decide)]
  rfl
/-- at the contracted feature; -/
theorem lhs_feat (j : S16x1024.Idx) (q : dot_S16x1024_S1024x1024_S16x1024_1_1_0_0_n_n.contr.Idx) :
    (dot_S16x1024_S1024x1024_S16x1024_1_1_0_0_n_n.lhsIdx j q 1).val = (q ⟨0, by decide⟩).val :=
  dot_S16x1024_S1024x1024_S16x1024_1_1_0_0_n_n.lhsIdx_val_of_single rfl j q
/-- the weight read lies in row `p`, -/
theorem rhs_row (j : S16x1024.Idx) (q : dot_S16x1024_S1024x1024_S16x1024_1_1_0_0_n_n.contr.Idx) :
    (dot_S16x1024_S1024x1024_S16x1024_1_1_0_0_n_n.rhsIdx j q 0).val = (j 1).val := by
  unfold DotDims.rhsIdx
  rw [dif_neg (show ¬(0 : Fin S1024x1024.rank) ∈ dot_S16x1024_S1024x1024_S16x1024_1_1_0_0_n_n.rhsBatch by decide),
    dif_pos (show (0 : Fin S1024x1024.rank) ∈ dot_S16x1024_S1024x1024_S16x1024_1_1_0_0_n_n.rhsNonContracting by decide)]
  rfl
/-- at the same feature. -/
theorem rhs_feat (j : S16x1024.Idx) (q : dot_S16x1024_S1024x1024_S16x1024_1_1_0_0_n_n.contr.Idx) :
    (dot_S16x1024_S1024x1024_S16x1024_1_1_0_0_n_n.rhsIdx j q 1).val = (q ⟨0, by decide⟩).val :=
  dot_S16x1024_S1024x1024_S16x1024_1_1_0_0_n_n.rhsIdx_val_of_single rfl j q

/-! ## The three stored values at an entry -/

/-- The reset value is zero everywhere. -/
theorem reset_apply (j : S16x1024.Idx) : k0_pay1 (F := Ideal) j = 0 := by
  unfold k0_pay1
  rw [shapeCast_self]
  exact Ideal.ofBits_zero_f32

/-- The accumulator's new value at `(t, p)`: its old value there plus `Σ_k x[t, k] * ((code[p, k] - 128) * scale[p])`
    over the tile's 1024 features. -/
theorem update_apply (codes : Vec Ideal S1024x1024 .i32) (scales : Vec Ideal S1024 .f32)
    (acts acc : Vec Ideal S16x1024 .f32) (t : Fin 16) (p : Fin 1024) :
    k0_pay2 (F := Ideal) codes scales acts acc (ix2 t p)
      = acc (ix2 t p) + ∑ k : Fin 1024, acts (ix2 t k)
          * ((FloatOps.sitofp (F := Ideal) .f32 (codes (ix2 p k)) - Ideal.ofBits .f32 0x43000000#32) * scales (ix1 p)) := by
  unfold k0_pay2
  rw [shapeCast_self]
  refine congrArg (acc (ix2 t p) + ·) ?_
  simp only [matmul]
  rw [Ideal.matmul_constant_zero_apply,
    ← Equiv.sum_comp (ValueIdx.contrEquiv1 dot_S16x1024_S1024x1024_S16x1024_1_1_0_0_n_n 1024 rfl rfl).symm]
  refine Finset.sum_congr rfl fun k _ => ?_
  have hk := ValueIdx.contrEquiv1_symm_val dot_S16x1024_S1024x1024_S16x1024_1_1_0_0_n_n 1024 rfl rfl k
  have el : dot_S16x1024_S1024x1024_S16x1024_1_1_0_0_n_n.lhsIdx (ix2 t p)
      ((ValueIdx.contrEquiv1 dot_S16x1024_S1024x1024_S16x1024_1_1_0_0_n_n 1024 rfl rfl).symm k) = ix2 t k :=
    funext fun a => Fin.ext (by
      match a with
      | ⟨0, _⟩ => exact lhs_row _ _
      | ⟨1, _⟩ => exact (lhs_feat _ _).trans hk)
  have er : dot_S16x1024_S1024x1024_S16x1024_1_1_0_0_n_n.rhsIdx (ix2 t p)
      ((ValueIdx.contrEquiv1 dot_S16x1024_S1024x1024_S16x1024_1_1_0_0_n_n 1024 rfl rfl).symm k) = ix2 p k :=
    funext fun a => Fin.ext (by
      match a with
      | ⟨0, _⟩ => exact rhs_row _ _
      | ⟨1, _⟩ => exact (rhs_feat _ _).trans hk)
  rw [el, er, truncf_apply, truncf_apply, shapeCast_self, mulf_apply, subf_apply, sitofp_apply, broadcast_apply,
    broadcastTo_a1_ab_apply, shapeCast_a_a1_apply]
  rfl

/-- The written-back value at `(t, p)`: the accumulator there plus the bias of column `p`. -/
theorem finish_apply (acc : Vec Ideal S16x1024 .f32) (biases : Vec Ideal S1024 .f32) (t : Fin 16) (p : Fin 1024) :
    k0_pay3 (F := Ideal) acc biases (ix2 t p) = acc (ix2 t p) + biases (ix1 p) := by
  unfold k0_pay3
  rw [addf_apply, broadcastTo_1b_ab_apply, shapeCast_a_1a_apply]

end Cert.KernelIdeal.TileValue

end
-- ==== Proof.TilePieces.lean ====
/-
  What the body leaves behind at one grid point, for each of its three control cases, as the stored values
  themselves.  Every store of the body writes a whole 16 x 1024 buffer, so what a buffer holds afterwards is the
  value of the last store into it, and a load reads a whole buffer's contents.

  * First tile of a column block (reset, then update): the accumulator ends at the update of the reset value —
    the update reads back what the reset stored.
  * A middle tile (update only): the accumulator ends at the update of what the point before left in it.
  * Last tile (update, then write-back): the accumulator as for a middle tile, and the output block holds the
    finishing value computed from that accumulator and the bias block.
-/
import proofs.«101341_j53755810676756_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic

namespace Cert.KernelIdeal.TilePieces

open Cert.KernelIdeal Cert.KernelIdeal.Gen

variable {F : FTy → Type} [FloatOps F]

/-- A whole matrix buffer is addressed from offset zero on both axes; -/
theorem off2 : (![0, 0] : Fin 2 → Nat) = fun _ => 0 := funext fun a => by fin_cases a <;> rfl
/-- a whole vector buffer from offset zero. -/
theorem off1 : (![0] : Fin 1 → Nat) = fun _ => 0 := funext fun a => by fin_cases a; rfl

/-- First tile: the accumulator ends at the update of the reset value. -/
theorem scratch_first (c : Dev nD) (i : grid0.Coords) (arg2 : Memref sig .tc .vmem S16x1024 .f32) (harg2 : arg2.IsWhole) (arg3 : Memref sig .tc .vmem S1024x1024 .i32) (harg3 : arg3.IsWhole) (arg4 : Memref sig .tc .vmem S1024 .f32) (harg4 : arg4.IsWhole) (arg5 : Memref sig .tc .vmem S1024 .f32) (harg5 : arg5.IsWhole) (arg6 : Memref sig .tc .vmem S16x1024 .f32) (harg6 : arg6.IsWhole) (arg7 : Memref sig .tc .vmem S16x1024 .f32) (harg7 : arg7.IsWhole) (hc0 : cond0_0 i) (hc1 : ¬cond0_1 i)
    (x0 : Vec F S16x1024 .f32) (x1 : Vec F S1024x1024 .i32) (x2 : Vec F S1024 .f32) (x3 : Vec F S1024 .f32) :
    sout0_A_0 c i arg2 harg2 arg3 harg3 arg4 harg4 arg5 harg5 arg6 harg6 arg7 harg7 hc0 hc1 x0 x1 x2 x3 = k0_pay2 x1 x2 x0 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S16x1024) off2]
  simp only [View.readAt_eq_ld, harg2.read_unread, harg3.read_unread, harg4.read_unread,
    View.ld_unit_zero (S := S16x1024) off2, View.ld_unit_zero (S := S1024x1024) off2,
    View.ld_unit_zero (S := S1024) off1, View.readCov_unit_zero (S := S16x1024) _ off2]

/-- Middle tile: the accumulator ends at the update of what it held. -/
theorem scratch_middle (c : Dev nD) (i : grid0.Coords) (arg2 : Memref sig .tc .vmem S16x1024 .f32) (harg2 : arg2.IsWhole) (arg3 : Memref sig .tc .vmem S1024x1024 .i32) (harg3 : arg3.IsWhole) (arg4 : Memref sig .tc .vmem S1024 .f32) (harg4 : arg4.IsWhole) (arg5 : Memref sig .tc .vmem S1024 .f32) (harg5 : arg5.IsWhole) (arg6 : Memref sig .tc .vmem S16x1024 .f32) (harg6 : arg6.IsWhole) (arg7 : Memref sig .tc .vmem S16x1024 .f32) (harg7 : arg7.IsWhole) (hc0 : ¬cond0_0 i) (hc1 : ¬cond0_1 i)
    (x0 : Vec F S16x1024 .f32) (x1 : Vec F S1024x1024 .i32) (x2 : Vec F S1024 .f32) (x3 : Vec F S1024 .f32) (xs0 : Vec F S16x1024 .f32) :
    sout0_B_0 c i arg2 harg2 arg3 harg3 arg4 harg4 arg5 harg5 arg6 harg6 arg7 harg7 hc0 hc1 x0 x1 x2 x3 xs0 = k0_pay2 x1 x2 x0 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero off2]
  simp only [View.readAt_eq_ld, harg2.read_unread, harg3.read_unread, harg4.read_unread, harg7.read_unread,
    View.ld_unit_zero (S := S16x1024) off2, View.ld_unit_zero (S := S1024x1024) off2,
    View.ld_unit_zero (S := S1024) off1]

/-- Last tile: the accumulator as for a middle tile; -/
theorem scratch_last (c : Dev nD) (i : grid0.Coords) (arg2 : Memref sig .tc .vmem S16x1024 .f32) (harg2 : arg2.IsWhole) (arg3 : Memref sig .tc .vmem S1024x1024 .i32) (harg3 : arg3.IsWhole) (arg4 : Memref sig .tc .vmem S1024 .f32) (harg4 : arg4.IsWhole) (arg5 : Memref sig .tc .vmem S1024 .f32) (harg5 : arg5.IsWhole) (arg6 : Memref sig .tc .vmem S16x1024 .f32) (harg6 : arg6.IsWhole) (arg7 : Memref sig .tc .vmem S16x1024 .f32) (harg7 : arg7.IsWhole) (hc0 : ¬cond0_0 i) (hc1 : cond0_1 i)
    (x0 : Vec F S16x1024 .f32) (x1 : Vec F S1024x1024 .i32) (x2 : Vec F S1024 .f32) (x3 : Vec F S1024 .f32) (xs0 : Vec F S16x1024 .f32) :
    sout0_C_0 c i arg2 harg2 arg3 harg3 arg4 harg4 arg5 harg5 arg6 harg6 arg7 harg7 hc0 hc1 x0 x1 x2 x3 xs0 = k0_pay2 x1 x2 x0 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero off2]
  simp only [View.readAt_eq_ld, harg2.read_unread, harg3.read_unread, harg4.read_unread, harg7.read_unread,
    View.ld_unit_zero (S := S16x1024) off2, View.ld_unit_zero (S := S1024x1024) off2,
    View.ld_unit_zero (S := S1024) off1]

/-- and the output block holds the finishing value of that accumulator and the bias block. -/
theorem out_last (c : Dev nD) (i : grid0.Coords) (arg2 : Memref sig .tc .vmem S16x1024 .f32) (harg2 : arg2.IsWhole) (arg3 : Memref sig .tc .vmem S1024x1024 .i32) (harg3 : arg3.IsWhole) (arg4 : Memref sig .tc .vmem S1024 .f32) (harg4 : arg4.IsWhole) (arg5 : Memref sig .tc .vmem S1024 .f32) (harg5 : arg5.IsWhole) (arg6 : Memref sig .tc .vmem S16x1024 .f32) (harg6 : arg6.IsWhole) (arg7 : Memref sig .tc .vmem S16x1024 .f32) (harg7 : arg7.IsWhole) (hc0 : ¬cond0_0 i) (hc1 : cond0_1 i)
    (x0 : Vec F S16x1024 .f32) (x1 : Vec F S1024x1024 .i32) (x2 : Vec F S1024 .f32) (x3 : Vec F S1024 .f32) (xs0 : Vec F S16x1024 .f32) :
    out0_C_4 c i arg2 harg2 arg3 harg3 arg4 harg4 arg5 harg5 arg6 harg6 arg7 harg7 hc0 hc1 x0 x1 x2 x3 xs0 = k0_pay3 (k0_pay2 x1 x2 x0 xs0) x3 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero off2]
  simp only [View.readAt_eq_ld, harg2.read_unread, harg3.read_unread, harg4.read_unread, harg5.read_unread,
    harg7.read_unread, View.ld_unit_zero (S := S16x1024) off2, View.ld_unit_zero (S := S1024x1024) off2,
    View.ld_unit_zero (S := S1024) off1, View.readCov_unit_zero (S := S16x1024) _ off2]

end Cert.KernelIdeal.TilePieces

end
-- ==== Proof.Accumulation.lean ====
/-
  The layer's result, read off the kernel's run.

  The grid has 64 points; point `8 b + k` works on column block `b` of the output (channels `1024 b + p`) and on
  tile `k` of the features (`1024 k + j`): it reads rows `0 … 15`, features of tile `k`, of the activations;
  the codes of those channels and features; and the scales and biases of those channels.  After that point the
  accumulator holds, at `(r, p)`, the running total of the tiles `0 … k` for row `r` and channel `1024 b + p`:
  by induction on the point, the first tile of a block starting the total from zero and every other tile adding
  its partial product to what the point before left.  At the eighth tile the total is the whole contraction, the
  bias is added, and the block is written back to columns `1024 b … 1024 b + 1023` of the 16 x 8192 output; the
  eight written blocks cover it.  The host operations around the call only drop and restore the batch axis.
-/
import proofs.«101341_j53755810676756_1_alg».proof.Proof.Gen.KernelIdeal.Frame
import proofs.«101341_j53755810676756_1_alg».proof.Proof.TilePayload
import proofs.«101341_j53755810676756_1_alg».proof.Proof.TilePieces
import proofs.«101341_j53755810676756_1_alg».proof.Proof.DequantLinear
import Idealize.ShloMosaic.Lib.Pipeline.Value
import Idealize.ShloMosaic.Lib.StableHlo.Run
import Idealize.ShloMosaic.Lib.ValueLayout

noncomputable section

open Idealize.ShloMosaic Idealize.ShloMosaic.TcCoe Idealize.SL.Sem
open Idealize.ShloMosaic.Pipeline (Dat)

namespace Cert.KernelIdeal.Accumulation

open Cert.KernelIdeal Cert.KernelIdeal.Gen Cert.DequantLinear
open Idealize.ShloMosaic.ValueIdx

variable (m : (ℓ : Loc nD τ sig) → Buf (Elt Ideal) ℓ) (ρ : Dev nD → PrngReg)

/-! ## The arguments and the blocks a point reads -/

/-- The activations, the codes, the scales and the biases as launched. -/
abbrev argX (c : Dev nD) : SAct.Idx → EReal := m ((c : Thread nD τ).loc main_arg0)
abbrev argCode (c : Dev nD) : SCode.Idx → BitVec 32 := m ((c : Thread nD τ).loc main_arg1)
abbrev argScale (c : Dev nD) : SChan.Idx → EReal := m ((c : Thread nD τ).loc main_arg2)
abbrev argBias (c : Dev nD) : SChan.Idx → EReal := m ((c : Thread nD τ).loc main_arg3)

/-- The four blocks point `t` reads. -/
abbrev actBlk (c : Dev nD) (t : Fin cfg0.N) : Vec Ideal S16x1024 .f32 := iblk m c 0 t
abbrev codeBlk (c : Dev nD) (t : Fin cfg0.N) : Vec Ideal S1024x1024 .i32 := iblk m c 1 t
abbrev scaleBlk (c : Dev nD) (t : Fin cfg0.N) : Vec Ideal S1024 .f32 := iblk m c 2 t
abbrev biasBlk (c : Dev nD) (t : Fin cfg0.N) : Vec Ideal S1024 .f32 := iblk m c 3 t

/-- Where each window's block sits at point `t`: the feature tile is `t mod 8`, the column block `t / 8`. -/
theorem idx_facts : ∀ t : Fin cfg0.N,
    win0_0.index t (0 : Fin 2) = 0 ∧ win0_0.index t (1 : Fin 2) = t.val % 8
    ∧ win0_1.index t (0 : Fin 2) = t.val / 8 ∧ win0_1.index t (1 : Fin 2) = t.val % 8
    ∧ win0_2.index t (0 : Fin 1) = t.val / 8
    ∧ win0_3.index t (0 : Fin 1) = t.val / 8
    ∧ win0_4.index t (0 : Fin 2) = 0 ∧ win0_4.index t (1 : Fin 2) = t.val / 8 :=
  (by decide +kernel : ∀ t : Fin grid0.N, _)

/-- The activations the call reads are the launched ones without their batch axis. -/
theorem acts_eq (c : Dev nD) :
    (V m c main_v0 : S16x8192.Idx → EReal)
      = shapeCast S16x8192 (m ((c : Thread nD τ).loc main_arg0)) shapeCasts_S1x16x8192_S16x8192 := by
  show StableHlo.after hostOps0 (fun b => m (c, b)) (Proc.devRef .tc main_v0) = _
  after_results
  rfl

section point
variable (c : Dev nD) (t : Fin cfg0.N) (b k : Fin 8) (ht : t.val = b.val * 8 + k.val)
include ht

/-- Entry `(r, j)` of the activation block is activation `(0, r, 1024 k + j)`. -/
theorem actBlk_apply (r : Fin 16) (j : Fin 1024) :
    actBlk m c t (ix2 r j) = argX m c (ix3 (0 : Fin 1) r (feat k j)) := by
  obtain ⟨e0, e1, -⟩ := idx_facts t
  have hb := b.isLt; have hk := k.isLt
  have e : actBlk m c t (ix2 r j) = (V m c main_v0 : S16x8192.Idx → EReal) (ix2 r (feat k j)) := by
    unfold actBlk iblk
    rw [View.read_apply]
    show V m c main_v0 _ = V m c main_v0 _
    congr 1
    funext a; apply Fin.ext
    match a with
    | ⟨0, _⟩ => show win0_0.index t (0 : Fin 2) * 16 + 1 * r.val = r.val; omega
    | ⟨1, _⟩ => show win0_0.index t (1 : Fin 2) * 1024 + 1 * j.val = k.val * 1024 + j.val; omega
  rw [e, acts_eq, shapeCast_1ab_ab_apply]

/-- Entry `(p, j)` of the code block is code `(1024 b + p, 1024 k + j)`. -/
theorem codeBlk_apply (p j : Fin 1024) :
    codeBlk m c t (ix2 p j) = argCode m c (ix2 (chan b p) (feat k j)) := by
  obtain ⟨-, -, e2, e3, -⟩ := idx_facts t
  have hb := b.isLt; have hk := k.isLt
  rw [show argCode m c = V m c main_arg1 from (V_main_arg1 m c).symm]
  unfold codeBlk iblk
  rw [View.read_apply]
  show V m c main_arg1 _ = V m c main_arg1 _
  congr 1
  funext a; apply Fin.ext
  match a with
  | ⟨0, _⟩ => show win0_1.index t (0 : Fin 2) * 1024 + 1 * p.val = b.val * 1024 + p.val; omega
  | ⟨1, _⟩ => show win0_1.index t (1 : Fin 2) * 1024 + 1 * j.val = k.val * 1024 + j.val; omega

/-- Entry `p` of the scale block is the scale of channel `1024 b + p`. -/
theorem scaleBlk_apply (p : Fin 1024) : scaleBlk m c t (ix1 p) = argScale m c (ix1 (chan b p)) := by
  obtain ⟨-, -, -, -, e4, -⟩ := idx_facts t
  have hb := b.isLt; have hk := k.isLt
  rw [show argScale m c = V m c main_arg2 from (V_main_arg2 m c).symm]
  unfold scaleBlk iblk
  rw [View.read_apply]
  show V m c main_arg2 _ = V m c main_arg2 _
  congr 1
  funext a; apply Fin.ext
  match a with
  | ⟨0, _⟩ => show win0_2.index t (0 : Fin 1) * 1024 + 1 * p.val = b.val * 1024 + p.val; omega

/-- Entry `p` of the bias block is the bias of channel `1024 b + p`. -/
theorem biasBlk_apply (p : Fin 1024) : biasBlk m c t (ix1 p) = argBias m c (ix1 (chan b p)) := by
  obtain ⟨-, -, -, -, -, e5, -⟩ := idx_facts t
  have hb := b.isLt; have hk := k.isLt
  rw [show argBias m c = V m c main_arg3 from (V_main_arg3 m c).symm]
  unfold biasBlk iblk
  rw [View.read_apply]
  show V m c main_arg3 _ = V m c main_arg3 _
  congr 1
  funext a; apply Fin.ext
  match a with
  | ⟨0, _⟩ => show win0_3.index t (0 : Fin 1) * 1024 + 1 * p.val = b.val * 1024 + p.val; omega

/-- The update at point `8 b + k` adds tile `k`'s partial product for row `r` and channel `1024 b + p`. -/
theorem update_at (acc : Vec Ideal S16x1024 .f32) (r : Fin 16) (p : Fin 1024) :
    k0_pay2 (F := Ideal) (codeBlk m c t) (scaleBlk m c t) (actBlk m c t) acc (ix2 r p)
      = acc (ix2 r p) + tileDot (argX m c) (argCode m c) (argScale m c) r (chan b p) k.val := by
  refine (TileValue.update_apply (codeBlk m c t) (scaleBlk m c t) (actBlk m c t) acc r p).trans ?_
  refine congrArg (acc (ix2 r p) + ·) ?_
  unfold tileDot
  rw [dif_pos k.isLt]
  refine Finset.sum_congr rfl fun j _ => ?_
  rw [actBlk_apply m c t b k ht, codeBlk_apply m c t b k ht, scaleBlk_apply m c t b k ht]
  rfl

end point

/-! ## The accumulator after each point -/

/-- At the first tile of a column block the accumulator ends at the update of the reset value; -/
theorem scratch_step_first (c : Dev nD) (t : Fin cfg0.N) (h0 : t.val % 8 = 0) :
    (outsAt0 m c t.val t.isLt).2
      = k0_pay2 (F := Ideal) (codeBlk m c t) (scaleBlk m c t) (actBlk m c t) (k0_pay1 (F := Ideal)) := by
  have h1 : ¬t.val % 8 = 7 := by omega
  rw [outsAt0_A m c t h0 h1]
  dsimp only
  exact TilePieces.scratch_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

/-- at every other tile at the update of what the point before left. -/
theorem scratch_step_next (c : Dev nD) (t : Fin cfg0.N) (h0 : ¬t.val % 8 = 0) :
    (outsAt0 m c t.val t.isLt).2
      = k0_pay2 (F := Ideal) (codeBlk m c t) (scaleBlk m c t) (actBlk m c t)
          (outsAt0 m c (t.val - 1) (Nat.lt_of_le_of_lt (Nat.sub_le _ _) t.isLt)).2 := by
  by_cases h1 : t.val % 8 = 7
  · rw [outsAt0_C m c t h0 h1]
    dsimp only
    exact TilePieces.scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2
  · rw [outsAt0_B m c t h0 h1]
    dsimp only
    exact TilePieces.scratch_middle (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2

/-- At the last tile the output block holds the finishing value of that accumulator and the bias block. -/
theorem out_step_last (c : Dev nD) (t : Fin cfg0.N) (h0 : ¬t.val % 8 = 0) (h1 : t.val % 8 = 7) :
    (outsAt0 m c t.val t.isLt).1
      = k0_pay3 (F := Ideal) (k0_pay2 (F := Ideal) (codeBlk m c t) (scaleBlk m c t) (actBlk m c t)
          (outsAt0 m c (t.val - 1) (Nat.lt_of_le_of_lt (Nat.sub_le _ _) t.isLt)).2) (biasBlk m c t) := by
  rw [outsAt0_C m c t h0 h1]
  dsimp only
  exact TilePieces.out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2

/-- THE INVARIANT: after point `8 b + k` the accumulator holds, at `(r, p)`, the running total of the tiles
    `0 … k` for row `r` and channel `1024 b + p`. -/
theorem scratch_eq (c : Dev nD) (n : ℕ) : ∀ (hn : n < cfg0.N) (b k : Fin 8), n = b.val * 8 + k.val →
    ∀ (r : Fin 16) (p : Fin 1024),
      (outsAt0 m c n hn).2 (ix2 r p) = running (argX m c) (argCode m c) (argScale m c) r (chan b p) k.val := by
  induction n with
  | zero =>
    intro hn b k hbk r p
    have hk : k.val = 0 := by omega
    refine (congrFun (scratch_step_first m c ⟨0, hn⟩ rfl) (ix2 r p)).trans ?_
    rw [update_at m c ⟨0, hn⟩ b k hbk, TileValue.reset_apply, hk]
    rfl
  | succ n ih =>
    intro hn b k hbk r p
    have hkl := k.isLt
    by_cases h0 : (n + 1) % 8 = 0
    · have hk : k.val = 0 := by omega
      refine (congrFun (scratch_step_first m c ⟨n + 1, hn⟩ h0) (ix2 r p)).trans ?_
      rw [update_at m c ⟨n + 1, hn⟩ b k hbk, TileValue.reset_apply, hk]
      rfl
    · obtain ⟨k', hk'⟩ : ∃ k' : Fin 8, k.val = k'.val + 1 := ⟨⟨k.val - 1, by omega⟩, by show k.val = k.val - 1 + 1; omega⟩
      refine (congrFun (scratch_step_next m c ⟨n + 1, hn⟩ h0) (ix2 r p)).trans ?_
      rw [update_at m c ⟨n + 1, hn⟩ b k hbk, hk', running_succ]
      refine congrArg (· + _) ?_
      exact ih (Nat.lt_of_succ_lt hn) b k' (by omega) r p

/-! ## The written-back blocks and the output array -/

/-- At the eighth tile of column block `b` the written-back value at `(r, p)` is the layer's value at row `r`
    and channel `1024 b + p`: the running total of all eight tiles is the whole contraction. -/
theorem finish_at (c : Dev nD) (t : Fin cfg0.N) (b : Fin 8) (ht : t.val = b.val * 8 + 7) (y : S16x1024.Idx) :
    k0_pay3 (F := Ideal) (k0_pay2 (F := Ideal) (codeBlk m c t) (scaleBlk m c t) (actBlk m c t)
        (outsAt0 m c (t.val - 1) (Nat.lt_of_le_of_lt (Nat.sub_le _ _) t.isLt)).2) (biasBlk m c t) y
      = rows (argX m c) (argCode m c) (argScale m c) (argBias m c) (ix2 (y 0) (chan b (y 1))) := by
  obtain ⟨r, p, rfl⟩ : ∃ (r : Fin 16) (p : Fin 1024), y = ix2 r p := ⟨y 0, y 1, eq_ix2 y⟩
  have ht' : t.val = b.val * 8 + (7 : Fin 8).val := ht
  rw [TileValue.finish_apply, update_at m c t b 7 ht', biasBlk_apply m c t b 7 ht',
    scratch_eq m c (t.val - 1) _ b 6 (by show t.val - 1 = b.val * 8 + 6; omega) r p]
  show running _ _ _ r (chan b p) 6 + tileDot _ _ _ r (chan b p) (6 + 1) + _ = dot _ _ _ r (chan b p) + _
  rw [← running_succ, running_last]

/-- What a flushing point writes back is its block of the layer's rows. -/
theorem flushed_eq (c : Dev nD) (t : Fin cfg0.N) (hf : (cfg0.win 4).flush t = true) :
    (dats m 0 c).flushed 4 t
      = ((cfg0.win 4).blk t).view.read (Elt Ideal) (rows (argX m c) (argCode m c) (argScale m c) (argBias m c)) := by
  have h1 : t.val % 8 = 7 := (flush0_4 t).mp hf
  have h0 : ¬t.val % 8 = 0 := by omega
  have hN : t.val < 64 := lt_of_lt_of_eq t.isLt (show cfg0.N = 64 from N_0)
  obtain ⟨-, -, -, -, -, -, e6, e7⟩ := idx_facts t
  show (cfg0.win 4).cut (grid0.coords t) ((dats m 0 c).after 4 t) = _
  rw [after0_4, out_step_last m c t h0 h1]
  funext y
  rw [View.read_apply]
  show k0_pay3 (F := Ideal) _ _ y = rows _ _ _ _ (((cfg0.win 4).blk t).view.emb y)
  refine (finish_at m c t ⟨t.val / 8, by omega⟩ (by show t.val = t.val / 8 * 8 + 7; omega) y).trans ?_
  congr 1
  funext a; apply Fin.ext
  match a with
  | ⟨0, _⟩ => show (y 0).val = win0_4.index t (0 : Fin 2) * 16 + 1 * (y 0).val; omega
  | ⟨1, _⟩ => show t.val / 8 * 1024 + (y 1).val = win0_4.index t (1 : Fin 2) * 1024 + 1 * (y 1).val; omega

/-- An entry of the output lies in point `t`'s block when each coordinate is in the block's range. -/
theorem mem_blk (t : Fin cfg0.N) (i : S16x8192.Idx) :
    i ∈ ((cfg0.win 4).blk t).view.set ↔ ∀ a : Fin 2, win0_4.index t a * S16x1024.size a ≤ (i a).val
      ∧ (i a).val < win0_4.index t a * S16x1024.size a + S16x1024.size a := by
  show i ∈ ((View.whole main_v1).slice (win0_4.rect t)).set ↔ _
  rw [View.set_slice_whole, Rect.mem_set_unit]
  exact Iff.rfl

/-- Column `o` of the output is written back at the eighth tile of column block `o / 1024`. -/
theorem covered (i : S16x8192.Idx) :
    ∃ t : Fin cfg0.N, (cfg0.win 4).flush t = true ∧ i ∈ ((cfg0.win 4).blk t).view.set := by
  have hi0 : (i 0).val < 16 := (i 0).isLt
  have hi1 : (i 1).val < 8192 := (i 1).isLt
  have hN : cfg0.N = 64 := N_0
  obtain ⟨t, htv⟩ : ∃ t : Fin cfg0.N, t.val = (i 1).val / 1024 * 8 + 7 := ⟨⟨(i 1).val / 1024 * 8 + 7, by rw [hN]; omega⟩, rfl⟩
  obtain ⟨-, -, -, -, -, -, e6, e7⟩ := idx_facts t
  refine ⟨t, (flush0_4 t).mpr (by omega), ?_⟩
  rw [mem_blk]
  intro a
  match a with
  | ⟨0, _⟩ =>
    show win0_4.index t (0 : Fin 2) * 16 ≤ (i 0).val ∧ (i 0).val < win0_4.index t (0 : Fin 2) * 16 + 16
    omega
  | ⟨1, _⟩ =>
    show win0_4.index t (1 : Fin 2) * 1024 ≤ (i 1).val ∧ (i 1).val < win0_4.index t (1 : Fin 2) * 1024 + 1024
    omega

/-- After the run the 16 x 8192 output holds the layer's rows. -/
theorem final (c : Dev nD) :
    (dats m 0 c).arrAt 4 cfg0.N = rows (argX m c) (argCode m c) (argScale m c) (argBias m c) :=
  (dats m 0 c).arrAt_eq_of_cover 4 _ (flushed_eq m c) covered

/-! ## The host operation after the call, and the run -/

/-- The result buffer ends holding the layer's result: the 16 x 8192 output under a leading batch axis. -/
theorem tail_eq (c : Dev nD) :
    Pipeline.afterTail₀ cfgs (dats m) 0 (V0 m) [hostOps1] c main_v2
      = result (argX m c) (argCode m c) (argScale m c) (argBias m c) := by
  unfold Pipeline.afterTail₀
  show StableHlo.after hostOps1 _ (Proc.devRef .tc main_v2) = _
  after_results
  have e : Pipeline.withArrays (cfgs 0).spec c (V0 m c) (fun w => (dats m 0 c).arrAt w (cfgs 0).N)
      (Proc.tc.devRef main_v1) = rows (argX m c) (argCode m c) (argScale m c) (argBias m c) :=
    (Pipeline.withArrays_arr spec0 launch0.win.arr_inj c _ _ 4).trans (final m c)
  funext i
  obtain ⟨u, r, o, rfl⟩ : ∃ (u : Fin 1) (r : Fin 16) (o : Fin 8192), i = ix3 u r o := ⟨i 0, i 1, i 2, eq_ix3 i⟩
  show shapeCast S1x16x8192 (Pipeline.withArrays (cfgs 0).spec c (V0 m c) (fun w => (dats m 0 c).arrAt w (cfgs 0).N)
      (Proc.tc.devRef main_v1)) shapeCasts_S16x8192_S1x16x8192 (ix3 u r o) = _
  rw [e, shapeCast_ab_1ab_apply]
  rfl

/-- Every weakly fair execution of the kernel program terminates with the result buffer at the layer's result
    of the launched arguments, and the arguments unchanged. -/
theorem run : θ_run defs (onTc (τ := τ) (main (F := Ideal))) ⟨m, fun _ => 0, ρ⟩ fun r => ∀ c : Dev nD,
      r.2.mem ((c.tc : Thread nD τ).loc main_v2) = result (argX m c) (argCode m c) (argScale m c) (argBias m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Accumulation

end
-- ==== Proof.lean ====
/-
  A linear layer with integer-coded weights, computed by a tiled kernel, against its one-pass reference.

  Both programs compute `out[0, t, o] = Σ_i x[0, t, i] * ((code[o, i] - 128) * scale[o]) + bias[o]` over the
  extended reals.  The reference dequantizes the whole weight matrix, contracts in one pass and adds the bias.
  The kernel walks an 8 x 8 grid: for each block of 1024 output channels it accumulates, over eight tiles of 1024
  input features, the tile's partial product into a running total that starts from zero, and after the eighth
  tile adds the bias and writes the block back.  The two changes of float format inside the kernel are the
  identity at the ideal instance, and a running total over the eight tiles equals the one-pass sum because
  addition of extended reals is associative and commutative: no input has to be finite for this, so the
  precondition is never opened.

  The kernel's frames are the generated ones; the reference's frame is its run with the result dropped; the
  idealization rewrote nothing.
-/
import proofs.«101341_j53755810676756_1_alg».proof.Defs
import proofs.«101341_j53755810676756_1_alg».proof.Proof.Gen.Kernel
import proofs.«101341_j53755810676756_1_alg».proof.Proof.Gen.Kernel.Frame
import proofs.«101341_j53755810676756_1_alg».proof.Proof.Gen.KernelIdeal
import proofs.«101341_j53755810676756_1_alg».proof.Proof.Gen.KernelIdeal.Frame
import proofs.«101341_j53755810676756_1_alg».proof.Proof.Gen.ReferenceIdeal
import proofs.«101341_j53755810676756_1_alg».proof.Proof.Gen.ReferenceIdeal.Run
import proofs.«101341_j53755810676756_1_alg».proof.Proof.Gen.ReferenceIdeal.Read
import proofs.«101341_j53755810676756_1_alg».proof.Proof.Gen.Pre_finite_inputs
import proofs.«101341_j53755810676756_1_alg».proof.Proof.RefValue
import proofs.«101341_j53755810676756_1_alg».proof.Proof.Accumulation
import Idealize.ShloMosaic.Adequacy
import Idealize.ShloMosaic.Init

noncomputable section

namespace Cert.Proof

open Idealize.ShloMosaic Idealize.SL.Sem

/-- The word-level kernel terminates without fault and leaves its arguments as they were. -/
theorem frame_kernel : Cert.frame_Kernel := fun m ρ _ => Cert.Kernel.Gen.frame m ρ

/-- So does the kernel read at the ideal instance. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the four arguments both programs end with the layer's result of those
    arguments: the kernel by its accumulation over the grid, the reference operation by operation. -/
theorem algebraic : Cert.algebraic_KernelIdeal_ReferenceIdeal := by
  intro m ρ m' ρ' _ hagree
  refine ⟨fun c => Cert.DequantLinear.result (Cert.KernelIdeal.Accumulation.argX m c)
      (Cert.KernelIdeal.Accumulation.argCode m c) (Cert.KernelIdeal.Accumulation.argScale m c)
      (Cert.KernelIdeal.Accumulation.argBias m c), Cert.KernelIdeal.Accumulation.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.reference_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
